-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S640000x64 : Shape := ⟨2, ![640000, 64]⟩
abbrev S256x192 : Shape := ⟨2, ![256, 192]⟩
abbrev S256 : Shape := ⟨1, ![256]⟩
abbrev S128x256 : Shape := ⟨2, ![128, 256]⟩
abbrev S128 : Shape := ⟨1, ![128]⟩
abbrev S_ : Shape := ⟨0, ![]⟩
abbrev S1x640000 : Shape := ⟨2, ![1, 640000]⟩
abbrev S640000 : Shape := ⟨1, ![640000]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S640000x64 : S_.BroadcastsInDim S640000x64 (![] : Fin 0 → Fin S640000x64.rank)
  reducesTo_S640000x64_S_d0_1 : S640000x64.ReducesTo [0, 1] S_
  bcast_S_S256x192 : S_.BroadcastsInDim S256x192 (![] : Fin 0 → Fin S256x192.rank)
  reducesTo_S256x192_S_d0_1 : S256x192.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  slices_S2x640000_S1x640000_0_0 : S2x640000.Slices ![0, 0] S1x640000
  shapeCasts_S1x640000_S640000 : S1x640000.ShapeCasts S640000
  bcast_S_S640000 : S_.BroadcastsInDim S640000 (![] : Fin 0 → Fin S640000.rank)
  reducesTo_S640000_S_d0 : S640000.ReducesTo [0] S_

variable [Facts]

def fn_part2 {F : FTy → Type} [FloatOps F] (main_v28 : IVec S_ 1) (main_v32 : IVec S640000 1) (main_v34 : IVec S640000 32) : IVec S_ 1 :=
  let main_c_11 : IVec S_ 32 := constantI S_ 32 10000#32
  let main_v35 : IVec S640000 32 := broadcastInDim S640000 ![] bcast_S_S640000 main_c_11
  let main_v36 : IVec S640000 1 := cmpi .slt main_v34 main_v35
  let main_v37 : IVec S640000 1 := andi main_v32 main_v36
  let main_c_12 : IVec S_ 1 := constantI S_ 1 1#1
  let main_v38 : IVec S_ 1 := (fun x v => Host.reduce IntOp.andi x v reducesTo_S640000_S_d0 h_S_) main_v37 main_c_12
  let main_v39 : IVec S_ 1 := andi main_v28 main_v38
  main_v39

def fn_part1 {F : FTy → Type} [FloatOps F] (main_arg1 : IVec S2x640000 32) (main_arg5 : FVec F S128x256 .f32) (main_arg6 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : IVec S1x640000 32 := (extractStridedSlice S1x640000 ![0, 0] · slices_S2x640000_S1x640000_0_0) main_arg1
  let main_v30 : IVec S640000 32 := shapeCast S640000 main_v29 shapeCasts_S1x640000_S640000
  let main_c_10 : IVec S_ 32 := constantI S_ 32 4294957296#32
  let main_v31 : IVec S640000 32 := broadcastInDim S640000 ![] bcast_S_S640000 main_c_10
  let main_v32 : IVec S640000 1 := cmpi .sge main_v30 main_v31
  let main_v33 : IVec S1x640000 32 := (extractStridedSlice S1x640000 ![0, 0] · slices_S2x640000_S1x640000_0_0) main_arg1
  let main_v34 : IVec S640000 32 := shapeCast S640000 main_v33 shapeCasts_S1x640000_S640000
  fn_part2 (F := F) main_v28 main_v32 main_v34

def fn {F : FTy → Type} [FloatOps F] (main_arg0 : FVec F S10000x128 .f32) (main_arg1 : IVec S2x640000 32) (main_arg2 : FVec F S640000x64 .f32) (main_arg3 : FVec F S256x192 .f32) (main_arg4 : FVec F S256 .f32) (main_arg5 : FVec F S128x256 .f32) (main_arg6 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S640000x64 .f32 := Host.absf main_arg2
  let main_cst_0 : FVec F S_ .f32 := constant S_ .f32 0x7F800000#32
  let main_v5 : FVec F S640000x64 .f32 := broadcastInDim S640000x64 ![] bcast_S_S640000x64 main_cst_0
  let main_v6 : IVec S640000x64 1 := cmpf .olt main_v4 main_v5
  let main_c_1 : IVec S_ 1 := constantI S_ 1 1#1
  let main_v7 : IVec S_ 1 := (fun x v => Host.reduce IntOp.andi x v reducesTo_S640000x64_S_d0_1 h_S_) main_v6 main_c_1
  let main_v8 : IVec S_ 1 := andi main_v3 main_v7
  let main_v9 : FVec F S256x192 .f32 := Host.absf main_arg3
  let main_cst_2 : FVec F S_ .f32 := constant S_ .f32 0x7F800000#32
  let main_v10 : FVec F S256x192 .f32 := broadcastInDim S256x192 ![] bcast_S_S256x192 main_cst_2
  let main_v11 : IVec S256x192 1 := cmpf .olt main_v9 main_v10
  let main_c_3 : IVec S_ 1 := constantI S_ 1 1#1
  let main_v12 : IVec S_ 1 := (fun x v => Host.reduce IntOp.andi x v reducesTo_S256x192_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg5 main_arg6 main_v13 main_v16
-- ==== Kernel.lean ====
abbrev S10000x128 : Shape := ⟨2, ![10000, 128]⟩
abbrev S2x640000 : Shape := ⟨2, ![2, 640000]⟩
abbrev S640000x64 : Shape := ⟨2, ![640000, 64]⟩
abbrev S256x192 : Shape := ⟨2, ![256, 192]⟩
abbrev S256 : Shape := ⟨1, ![256]⟩
abbrev S128x256 : Shape := ⟨2, ![128, 256]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S1 : Shape := ⟨1, ![1]⟩
abbrev S1x1 : Shape := ⟨2, ![1, 1]⟩
abbrev S640000x128 : Shape := ⟨2, ![640000, 128]⟩
abbrev S640000x192 : Shape := ⟨2, ![640000, 192]⟩
abbrev S192x256 : Shape := ⟨2, ![192, 256]⟩
abbrev S256x128 : Shape := ⟨2, ![256, 128]⟩
abbrev S1x256 : Shape := ⟨2, ![1, 256]⟩
abbrev S1x128 : Shape := ⟨2, ![1, 128]⟩
abbrev S6400x192 : Shape := ⟨2, ![6400, 192]⟩
abbrev S6400x128 : Shape := ⟨2, ![6400, 128]⟩
abbrev S6400x256 : Shape := ⟨2, ![6400, 256]⟩

abbrev nBuf : Space → Nat
  | .hbm => 44
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S640000x64, .f32⟩
  | .hbm, ⟨3, _⟩ => ⟨S256x192, .f32⟩
  | .hbm, ⟨4, _⟩ => ⟨S256, .f32⟩
  | .hbm, ⟨5, _⟩ => ⟨S128x256, .f32⟩
  | .hbm, ⟨6, _⟩ => ⟨S128, .f32⟩
  | .hbm, ⟨7, _⟩ => ⟨S1x640000, .i32⟩
  | .hbm, ⟨8, _⟩ => ⟨S640000, .i32⟩
  | .hbm, ⟨9, _⟩ => ⟨S1x640000, .i32⟩
  | .hbm, ⟨10, _⟩ => ⟨S640000, .i32⟩
  | .hbm, ⟨11, _⟩ => ⟨S_, .i32⟩
  | .hbm, ⟨12, _⟩ => ⟨S640000, .i32⟩
  | .hbm, ⟨13, _⟩ => ⟨S640000, .i1⟩
  | .hbm, ⟨14, _⟩ => ⟨S_, .i32⟩
  | .hbm, ⟨15, _⟩ => ⟨S640000, .i32⟩
  | .hbm, ⟨16, _⟩ => ⟨S640000, .i32⟩
  | .hbm, ⟨17, _⟩ => ⟨S640000, .i32⟩
  | .hbm, ⟨18, _⟩ => ⟨S640000x1, .i32⟩
  | .hbm, ⟨19, _⟩ => ⟨S1, .i32⟩
  | .hbm, ⟨20, _⟩ => ⟨S_, .i32⟩
  | .hbm, ⟨21, _⟩ => ⟨S640000x1, .i32⟩
  | .hbm, ⟨22, _⟩ => ⟨S640000x1, .i1⟩
  | .hbm, ⟨23, _⟩ => ⟨S1x1, .i32⟩
  | .hbm, ⟨24, _⟩ => ⟨S640000x1, .i32⟩
  | .hbm, ⟨25, _⟩ => ⟨S640000x1, .i1⟩
  | .hbm, ⟨26, _⟩ => ⟨S640000x1, .i1⟩
  | .hbm, ⟨27, _⟩ => ⟨S_, .i1⟩
  | .hbm, ⟨28, _⟩ => ⟨S640000, .i1⟩
  | .hbm, ⟨29, _⟩ => ⟨S640000x128, .f32⟩
  | .hbm, ⟨30, _⟩ => ⟨S640000x128, .i1⟩
  | .hbm, ⟨31, _⟩ => ⟨S_, .f32⟩
  | .hbm, ⟨32, _⟩ => ⟨S640000x128, .f32⟩
  | .hbm, ⟨33, _⟩ => ⟨S640000x128, .f32⟩
  | .hbm, ⟨34, _⟩ => ⟨S640000x192, .f32⟩
  | .hbm, ⟨35, _⟩ => ⟨S192x256, .f32⟩
  | .hbm, ⟨36, _⟩ => ⟨S256x128, .f32⟩
  | .hbm, ⟨37, _⟩ => ⟨S1x256, .f32⟩
  | .hbm, ⟨38, _⟩ => ⟨S1x128, .f32⟩
  | .hbm, ⟨39, _⟩ => ⟨S640000x128, .f32⟩
  | .hbm, ⟨40, _⟩ => ⟨S_, .f32⟩
  | .hbm, ⟨41, _⟩ => ⟨S10000x128, .f32⟩
  | .hbm, ⟨42, _⟩ => ⟨S640000x1, .i32⟩
  | .hbm, ⟨43, _⟩ => ⟨S10000x128, .f32⟩
  | .local _ .vmem, ⟨0, _⟩ => ⟨S6400x192, .f32⟩
  | .local _ .vmem, ⟨1, _⟩ => ⟨S6400x192, .f32⟩
  | .local _ .vmem, ⟨2, _⟩ => ⟨S192x256, .f32⟩
  | .local _ .vmem, ⟨3, _⟩ => ⟨S1x256, .f32⟩
  | .local _ .vmem, ⟨4, _⟩ => ⟨S256x128, .f32⟩
  | .local _ .vmem, ⟨5, _⟩ => ⟨S1x128, .f32⟩
  | .local _ .vmem, ⟨6, _⟩ => ⟨S6400x128, .f32⟩
  | .local _ .vmem, ⟨7, _⟩ => ⟨S6400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_cst : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S6400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  concatenates_S640000x128_S640000x64_S640000x192_d1 : Shape.Concatenates [S640000x128, S640000x64] S640000x192 1
  transposes_S256x192_S192x256_1_0 : S256x192.Transposes [1, 0] S192x256
  transposes_S128x256_S256x128_1_0 : S128x256.Transposes [1, 0] S256x128
  shapeCasts_S256_S1x256 : S256.ShapeCasts S1x256
  shapeCasts_S128_S1x128 : S128.ShapeCasts S1x128
  inb_S6400x192_S6400x192_0_0 : ∀ a, (![0, 0] : Fin 2 → Nat) a + S6400x192.size a ≤ S6400x192.size a
  h_S6400x192 : 0 < S6400x192.numel
  shapeCasts_S6400x192_S6400x192 : S6400x192.ShapeCasts S6400x192
  bitsLt_bf16_f32 : FTy.bits .bf16 < FTy.bits .f32
  inb_S192x256_S192x256_0_0 : ∀ a, (![0, 0] : Fin 2 → Nat) a + S192x256.size a ≤ S192x256.size a
  h_S192x256 : 0 < S192x256.numel
  shapeCasts_S192x256_S192x256 : S192x256.ShapeCasts S192x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S6400x256 : S1x256.Broadcasts S6400x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6400x128 : S1x128.Broadcasts S6400x128
  inb_S6400x128_S6400x128_0_0 : ∀ a, (![0, 0] : Fin 2 → Nat) a + S6400x128.size a ≤ S6400x128.size a
  h_S6400x128 : 0 < S6400x128.numel
  bcast_S_S10000x128 : S_.BroadcastsInDim S10000x128 (![] : Fin 0 → Fin S10000x128.rank)
  gather_S10000x128_S640000x1_S640000x128_1_0_n_n_0_1_1128_wf : GatherDims.WF S10000x128 S640000x1 S640000x128 [1] [0] [] [0] [] 1 ![1, 128]
  dot_S6400x192_S192x256_S6400x256_1_0_0_1_n_n_wf : DotDims.WF S6400x192 S192x256 S6400x256 [1] [0] [0] [1] [] []
  dot_S6400x256_S256x128_S6400x128_1_0_0_1_n_n_wf : DotDims.WF S6400x256 S256x128 S6400x128 [1] [0] [0] [1] [] []
  scatter_S10000x128_S640000x1_S640000x128_1_0_0_1_wf : ScatterDims.WF S10000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x192.size a ≤ S640000x192.size a
  hwx0_0 : ∀ i : grid0.Coords, EltTy.bits .f32 = 32 ∨ (Rect.block (s := S640000x192) S6400x192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S192x256.size a ≤ S192x256.size a
  hwx0_1 : ∀ i : grid0.Coords, EltTy.bits .f32 = 32 ∨ (Rect.block (s := S192x256) S192x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S6400x128.size a ≤ S640000x128.size a
  hwx0_5 : ∀ i : grid0.Coords, EltTy.bits .f32 = 32 ∨ (Rect.block (s := S640000x128) S6400x128.size (cc0_transform_5 i) (hinb0_5 i)).WholeWords (EltTy.packing .f32)

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def dot_S6400x192_S192x256_S6400x256_1_0_0_1_n_n : DotDims S6400x192 S192x256 S6400x256 where
  lhsContracting := [1]
  rhsContracting := [0]
  lhsNonContracting := [0]
  rhsNonContracting := [1]
  lhsBatch := []
  rhsBatch := []
  wf := dot_S6400x192_S192x256_S6400x256_1_0_0_1_n_n_wf
def dot_S6400x256_S256x128_S6400x128_1_0_0_1_n_n : DotDims S6400x256 S256x128 S6400x128 where
  lhsContracting := [1]
  rhsContracting := [0]
  lhsNonContracting := [0]
  rhsNonContracting := [1]
  lhsBatch := []
  rhsBatch := []
  wf := dot_S6400x256_S256x128_S6400x128_1_0_0_1_n_n_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf

abbrev win0_0 : Pipeline.Window sig grid0 :=
  Pipeline.Window.ofSpec (Memref.whole main_v5) S6400x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S6400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S2x640000 : Shape := ⟨2, ![2, 640000]⟩
abbrev S640000x64 : Shape := ⟨2, ![640000, 64]⟩
abbrev S256x192 : Shape := ⟨2, ![256, 192]⟩
abbrev S256 : Shape := ⟨1, ![256]⟩
abbrev S128x256 : Shape := ⟨2, ![128, 256]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S640000x192 : Shape := ⟨2, ![640000, 192]⟩
abbrev S192x256 : Shape := ⟨2, ![192, 256]⟩
abbrev S640000x256 : Shape := ⟨2, ![640000, 256]⟩
abbrev S1x256 : Shape := ⟨2, ![1, 256]⟩
abbrev S256x128 : Shape := ⟨2, ![256, 128]⟩
abbrev S1x128 : Shape := ⟨2, ![1, 128]⟩

abbrev nBuf : Space → Nat
  | .hbm => 38
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S640000x64, .f32⟩
  | .hbm, ⟨3, _⟩ => ⟨S256x192, .f32⟩
  | .hbm, ⟨4, _⟩ => ⟨S256, .f32⟩
  | .hbm, ⟨5, _⟩ => ⟨S128x256, .f32⟩
  | .hbm, ⟨6, _⟩ => ⟨S128, .f32⟩
  | .hbm, ⟨7, _⟩ => ⟨S1x640000, .i32⟩
  | .hbm, ⟨8, _⟩ => ⟨S640000, .i32⟩
  | .hbm, ⟨9, _⟩ => ⟨S1x640000, .i32⟩
  | .hbm, ⟨10, _⟩ => ⟨S640000, .i32⟩
  | .hbm, ⟨11, _⟩ => ⟨S_, .i32⟩
  | .hbm, ⟨12, _⟩ => ⟨S640000, .i32⟩
  | .hbm, ⟨13, _⟩ => ⟨S640000, .i1⟩
  | .hbm, ⟨14, _⟩ => ⟨S_, .i32⟩
  | .hbm, ⟨15, _⟩ => ⟨S640000, .i32⟩
  | .hbm, ⟨16, _⟩ => ⟨S640000, .i32⟩
  | .hbm, ⟨17, _⟩ => ⟨S640000, .i32⟩
  | .hbm, ⟨18, _⟩ => ⟨S640000x1, .i32⟩
  | .hbm, ⟨19, _⟩ => ⟨S640000x128, .f32⟩
  | .hbm, ⟨20, _⟩ => ⟨S640000x192, .f32⟩
  | .hbm, ⟨21, _⟩ => ⟨S192x256, .f32⟩
  | .hbm, ⟨22, _⟩ => ⟨S640000x256, .f32⟩
  | .hbm, ⟨23, _⟩ => ⟨S1x256, .f32⟩
  | .hbm, ⟨24, _⟩ => ⟨S640000x256, .f32⟩
  | .hbm, ⟨25, _⟩ => ⟨S640000x256, .f32⟩
  | .hbm, ⟨26, _⟩ => ⟨S_, .f32⟩
  | .hbm, ⟨27, _⟩ => ⟨S640000x256, .f32⟩
  | .hbm, ⟨28, _⟩ => ⟨S640000x256, .f32⟩
  | .hbm, ⟨29, _⟩ => ⟨S256x128, .f32⟩
  | .hbm, ⟨30, _⟩ => ⟨S640000x128, .f32⟩
  | .hbm, ⟨31, _⟩ => ⟨S1x128, .f32⟩
  | .hbm, ⟨32, _⟩ => ⟨S640000x128, .f32⟩
  | .hbm, ⟨33, _⟩ => ⟨S640000x128, .f32⟩
  | .hbm, ⟨34, _⟩ => ⟨S_, .f32⟩
  | .hbm, ⟨35, _⟩ => ⟨S10000x128, .f32⟩
  | .hbm, ⟨36, _⟩ => ⟨S640000x1, .i32⟩
  | .hbm, ⟨37, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x64_S640000x192_d1 : Shape.Concatenates [S640000x128, S640000x64] S640000x192 1
  transposes_S256x192_S192x256_1_0 : S256x192.Transposes [1, 0] S192x256
  bcast_S256_S1x256_1 : S256.BroadcastsInDim S1x256 (![1] : Fin 1 → Fin S1x256.rank)
  bcast_S1x256_S640000x256_0_1 : S1x256.BroadcastsInDim S640000x256 (![0, 1] : Fin 2 → Fin S640000x256.rank)
  bcast_S_S640000x256 : S_.BroadcastsInDim S640000x256 (![] : Fin 0 → Fin S640000x256.rank)
  transposes_S128x256_S256x128_1_0 : S128x256.Transposes [1, 0] S256x128
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S10000x128 : S_.BroadcastsInDim S10000x128 (![] : Fin 0 → Fin S10000x128.rank)
  gather_S10000x128_S640000x1_S640000x128_1_0_n_n_0_1_1128_wf : GatherDims.WF S10000x128 S640000x1 S640000x128 [1] [0] [] [0] [] 1 ![1, 128]
  dot_S640000x192_S192x256_S640000x256_1_0_0_1_n_n_wf : DotDims.WF S640000x192 S192x256 S640000x256 [1] [0] [0] [1] [] []
  dot_S640000x256_S256x128_S640000x128_1_0_0_1_n_n_wf : DotDims.WF S640000x256 S256x128 S640000x128 [1] [0] [0] [1] [] []
  scatter_S10000x128_S640000x1_S640000x128_1_0_0_1_wf : ScatterDims.WF S10000x128 S640000x1 S640000x128 [1] [0] [0] 1

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def dot_S640000x192_S192x256_S640000x256_1_0_0_1_n_n : DotDims S640000x192 S192x256 S640000x256 where
  lhsContracting := [1]
  rhsContracting := [0]
  lhsNonContracting := [0]
  rhsNonContracting := [1]
  lhsBatch := []
  rhsBatch := []
  wf := dot_S640000x192_S192x256_S640000x256_1_0_0_1_n_n_wf
def dot_S640000x256_S256x128_S640000x128_1_0_0_1_n_n : DotDims S640000x256 S256x128 S640000x128 where
  lhsContracting := [1]
  rhsContracting := [0]
  lhsNonContracting := [0]
  rhsNonContracting := [1]
  lhsBatch := []
  rhsBatch := []
  wf := dot_S640000x256_S256x128_S640000x128_1_0_0_1_n_n_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf

class Facts : Prop extends Facts₀ where

variable [Facts]
-- ==== Proof.MlpSpec.lean ====
/-
  The per-edge two-layer perceptron as ONE function of whole arrays on the extended reals. For a row
  count n, a feature array mm : [n, 192], weights w1 : [192, 256] and w2 : [256, 128] (already transposed) and
  bias rows b1 : [1, 256], b2 : [1, 128], row e of the result is

      ( Σ_k  max( (Σ_j mm[e, j] · w1[j, k]) + b1[0, k] , 0 ) · w2[k, o] ) + b2[0, o]        (o < 128).

  Each row depends on row e of mm only: the function of a block of rows is the block of the function.
-/
import Idealize.ShloMosaic.PureOps.Ideal
import Idealize.ShloMosaic.Lib.ValueIdx

noncomputable section

namespace Cert.EdgeMlp

open Idealize.ShloMosaic Idealize.ShloMosaic.ValueIdx

/-- Linear layer, bias, rectifier, linear layer, bias: row by row over n rows. The rectifier's zero is kept as the
    pattern of +0.0 both programs carry. -/
def mlp (n : Nat) (mm : FVec Ideal ⟨2, ![n, 192]⟩ .f32) (w1 : FVec Ideal ⟨2, ![192, 256]⟩ .f32)
    (b1 : FVec Ideal ⟨2, ![1, 256]⟩ .f32) (w2 : FVec Ideal ⟨2, ![256, 128]⟩ .f32) (b2 : FVec Ideal ⟨2, ![1, 128]⟩ .f32) :
    FVec Ideal ⟨2, ![n, 128]⟩ .f32 :=
  fun i => (∑ k : Fin 256, max ((∑ j : Fin 192, mm (ix2 (i 0) j) * w1 (ix2 j k)) + b1 (ix2 0 k))
      (Ideal.ofBits .f32 0x00000000#32) * w2 (ix2 k (i 1))) + b2 (ix2 0 (i 1))

/-- Rows p .. p + 6400 of the perceptron over 640000 rows are the perceptron of rows p .. p + 6400 of the features. -/
theorem mlp_rows (mm : FVec Ideal ⟨2, ![640000, 192]⟩ .f32) (w1 : FVec Ideal ⟨2, ![192, 256]⟩ .f32)
    (b1 : FVec Ideal ⟨2, ![1, 256]⟩ .f32) (w2 : FVec Ideal ⟨2, ![256, 128]⟩ .f32) (b2 : FVec Ideal ⟨2, ![1, 128]⟩ .f32)
    (blk : FVec Ideal ⟨2, ![6400, 192]⟩ .f32) (i : (⟨2, ![640000, 128]⟩ : Shape).Idx) (y : (⟨2, ![6400, 128]⟩ : Shape).Idx)
    (h1 : (y 1).val = (i 1).val) (hblk : ∀ j : Fin 192, blk (ix2 (y 0) j) = mm (ix2 (i 0) j)) :
    mlp 6400 blk w1 b1 w2 b2 y = mlp 640000 mm w1 b1 w2 b2 i := by
  have e1 : y 1 = i 1 := Fin.ext h1
  unfold mlp
  simp only [hblk, e1]

end Cert.EdgeMlp

end
-- ==== Proof.BodyValue.lean ====
/-
  What one grid point's body computes, at the extended reals: its one store's payload is the perceptron
  (MlpSpec.lean) of the 6400 feature rows it loaded. The two MXU products accumulate into a zero splat, so each is
  the plain sum over the contracted axis; the bf16 casts are the identity; the bias rows broadcast along the rows.
-/
import proofs.«400427_j34067680592556_1_alg».proof.Proof.Gen.KernelIdeal.Skeleton
import proofs.«400427_j34067680592556_1_alg».proof.Proof.MlpSpec
import Idealize.ShloMosaic.Lib.ValueIdx
import Idealize.ShloMosaic.Lib.Pipeline.Value
import Idealize.ShloMosaic.PureOps.Ideal.Laws

noncomputable section

namespace Cert.KernelIdeal.BodyValue

open Cert.KernelIdeal Cert.KernelIdeal.Gen Idealize.ShloMosaic Idealize.ShloMosaic.ValueIdx

/-! ## The first product: [6400, 192] × [192, 256] -/

theorem lhs1_0 (i : S6400x256.Idx) (q : dot_S6400x192_S192x256_S6400x256_1_0_0_1_n_n.contr.Idx) :
    (dot_S6400x192_S192x256_S6400x256_1_0_0_1_n_n.lhsIdx i q 0).val = (i 0).val := by
  unfold DotDims.lhsIdx
  rw [dif_neg (show ¬(0 : Fin S6400x192.rank) ∈ dot_S6400x192_S192x256_S6400x256_1_0_0_1_n_n.lhsBatch by decide), dif_pos (show (0 : Fin S6400x192.rank) ∈ dot_S6400x192_S192x256_S6400x256_1_0_0_1_n_n.lhsNonContracting by decide)]
  rfl
theorem lhs1_1 (i : S6400x256.Idx) (q : dot_S6400x192_S192x256_S6400x256_1_0_0_1_n_n.contr.Idx) :
    (dot_S6400x192_S192x256_S6400x256_1_0_0_1_n_n.lhsIdx i q 1).val = (q ⟨0, by decide⟩).val :=
  dot_S6400x192_S192x256_S6400x256_1_0_0_1_n_n.lhsIdx_val_of_single rfl i q
theorem rhs1_0 (i : S6400x256.Idx) (q : dot_S6400x192_S192x256_S6400x256_1_0_0_1_n_n.contr.Idx) :
    (dot_S6400x192_S192x256_S6400x256_1_0_0_1_n_n.rhsIdx i q 0).val = (q ⟨0, by decide⟩).val :=
  dot_S6400x192_S192x256_S6400x256_1_0_0_1_n_n.rhsIdx_val_of_single rfl i q
theorem rhs1_1 (i : S6400x256.Idx) (q : dot_S6400x192_S192x256_S6400x256_1_0_0_1_n_n.contr.Idx) :
    (dot_S6400x192_S192x256_S6400x256_1_0_0_1_n_n.rhsIdx i q 1).val = (i 1).val := by
  unfold DotDims.rhsIdx
  rw [dif_neg (show ¬(1 : Fin S192x256.rank) ∈ dot_S6400x192_S192x256_S6400x256_1_0_0_1_n_n.rhsBatch by decide), dif_pos (show (1 : Fin S192x256.rank) ∈ dot_S6400x192_S192x256_S6400x256_1_0_0_1_n_n.rhsNonContracting by decide)]
  rfl

/-- Entry (r, k) of the first product is the sum over the 192 features. -/
theorem layer1_apply (a : FVec Ideal S6400x192 .bf16) (b : FVec Ideal S192x256 .bf16) (i : S6400x256.Idx) :
    matmul dot_S6400x192_S192x256_S6400x256_1_0_0_1_n_n none a b (constant S6400x256 .f32 0x00000000#32) i
      = ∑ j : Fin 192, a (ix2 (i 0) j) * b (ix2 j (i 1)) := by
  show FloatOps.matmul _ _ _ _ _ _ = _
  rw [Ideal.matmul_constant_zero_apply, ← Equiv.sum_comp (ValueIdx.contrEquiv1 dot_S6400x192_S192x256_S6400x256_1_0_0_1_n_n 192 rfl rfl).symm]
  refine Finset.sum_congr rfl fun k _ => ?_
  have hk := ValueIdx.contrEquiv1_symm_val dot_S6400x192_S192x256_S6400x256_1_0_0_1_n_n 192 rfl rfl k
  have el : dot_S6400x192_S192x256_S6400x256_1_0_0_1_n_n.lhsIdx i ((ValueIdx.contrEquiv1 dot_S6400x192_S192x256_S6400x256_1_0_0_1_n_n 192 rfl rfl).symm k) = ix2 (i 0) k := funext fun a => Fin.ext (by
    match a with
    | ⟨0, _⟩ => exact lhs1_0 _ _
    | ⟨1, _⟩ => exact (lhs1_1 _ _).trans hk)
  have er : dot_S6400x192_S192x256_S6400x256_1_0_0_1_n_n.rhsIdx i ((ValueIdx.contrEquiv1 dot_S6400x192_S192x256_S6400x256_1_0_0_1_n_n 192 rfl rfl).symm k) = ix2 k (i 1) := funext fun a => Fin.ext (by
    match a with
    | ⟨0, _⟩ => exact (rhs1_0 _ _).trans hk
    | ⟨1, _⟩ => exact rhs1_1 _ _)
  rw [el, er]
  rfl

/-! ## The second product: [6400, 256] × [256, 128] -/

theorem lhs2_0 (i : S6400x128.Idx) (q : dot_S6400x256_S256x128_S6400x128_1_0_0_1_n_n.contr.Idx) :
    (dot_S6400x256_S256x128_S6400x128_1_0_0_1_n_n.lhsIdx i q 0).val = (i 0).val := by
  unfold DotDims.lhsIdx
  rw [dif_neg (show ¬(0 : Fin S6400x256.rank) ∈ dot_S6400x256_S256x128_S6400x128_1_0_0_1_n_n.lhsBatch by decide), dif_pos (show (0 : Fin S6400x256.rank) ∈ dot_S6400x256_S256x128_S6400x128_1_0_0_1_n_n.lhsNonContracting by decide)]
  rfl
theorem lhs2_1 (i : S6400x128.Idx) (q : dot_S6400x256_S256x128_S6400x128_1_0_0_1_n_n.contr.Idx) :
    (dot_S6400x256_S256x128_S6400x128_1_0_0_1_n_n.lhsIdx i q 1).val = (q ⟨0, by decide⟩).val :=
  dot_S6400x256_S256x128_S6400x128_1_0_0_1_n_n.lhsIdx_val_of_single rfl i q
theorem rhs2_0 (i : S6400x128.Idx) (q : dot_S6400x256_S256x128_S6400x128_1_0_0_1_n_n.contr.Idx) :
    (dot_S6400x256_S256x128_S6400x128_1_0_0_1_n_n.rhsIdx i q 0).val = (q ⟨0, by decide⟩).val :=
  dot_S6400x256_S256x128_S6400x128_1_0_0_1_n_n.rhsIdx_val_of_single rfl i q
theorem rhs2_1 (i : S6400x128.Idx) (q : dot_S6400x256_S256x128_S6400x128_1_0_0_1_n_n.contr.Idx) :
    (dot_S6400x256_S256x128_S6400x128_1_0_0_1_n_n.rhsIdx i q 1).val = (i 1).val := by
  unfold DotDims.rhsIdx
  rw [dif_neg (show ¬(1 : Fin S256x128.rank) ∈ dot_S6400x256_S256x128_S6400x128_1_0_0_1_n_n.rhsBatch by decide), dif_pos (show (1 : Fin S256x128.rank) ∈ dot_S6400x256_S256x128_S6400x128_1_0_0_1_n_n.rhsNonContracting by decide)]
  rfl

/-- Entry (r, o) of the second product is the sum over the 256 hidden units. -/
theorem layer2_apply (a : FVec Ideal S6400x256 .bf16) (b : FVec Ideal S256x128 .bf16) (i : S6400x128.Idx) :
    matmul dot_S6400x256_S256x128_S6400x128_1_0_0_1_n_n none a b (constant S6400x128 .f32 0x00000000#32) i
      = ∑ k : Fin 256, a (ix2 (i 0) k) * b (ix2 k (i 1)) := by
  show FloatOps.matmul _ _ _ _ _ _ = _
  rw [Ideal.matmul_constant_zero_apply, ← Equiv.sum_comp (ValueIdx.contrEquiv1 dot_S6400x256_S256x128_S6400x128_1_0_0_1_n_n 256 rfl rfl).symm]
  refine Finset.sum_congr rfl fun k _ => ?_
  have hk := ValueIdx.contrEquiv1_symm_val dot_S6400x256_S256x128_S6400x128_1_0_0_1_n_n 256 rfl rfl k
  have el : dot_S6400x256_S256x128_S6400x128_1_0_0_1_n_n.lhsIdx i ((ValueIdx.contrEquiv1 dot_S6400x256_S256x128_S6400x128_1_0_0_1_n_n 256 rfl rfl).symm k) = ix2 (i 0) k := funext fun a => Fin.ext (by
    match a with
    | ⟨0, _⟩ => exact lhs2_0 _ _
    | ⟨1, _⟩ => exact (lhs2_1 _ _).trans hk)
  have er : dot_S6400x256_S256x128_S6400x128_1_0_0_1_n_n.rhsIdx i ((ValueIdx.contrEquiv1 dot_S6400x256_S256x128_S6400x128_1_0_0_1_n_n 256 rfl rfl).symm k) = ix2 k (i 1) := funext fun a => Fin.ext (by
    match a with
    | ⟨0, _⟩ => exact (rhs2_0 _ _).trans hk
    | ⟨1, _⟩ => exact rhs2_1 _ _)
  rw [el, er]
  rfl

/-! ## The bias rows, broadcast along the rows -/

/-- A [1, 256] row broadcast to [6400, 256], read at (r, k), is the row at (0, k). -/
theorem bias1_apply (x : FVec Ideal S1x256 .f32) (i : S6400x256.Idx) :
    broadcastTo S6400x256 x broadcasts_S1x256_S6400x256 i = x (ix2 0 (i 1)) :=
  broadcastTo_apply x broadcasts_S1x256_S6400x256 i (ix2 0 (i 1)) (fun a => by
    match a with
    | ⟨0, _⟩ => rfl
    | ⟨1, _⟩ => rfl)

/-- A [1, 128] row broadcast to [6400, 128], read at (r, o), is the row at (0, o). -/
theorem bias2_apply (x : FVec Ideal S1x128 .f32) (i : S6400x128.Idx) :
    broadcastTo S6400x128 x broadcasts_S1x128_S6400x128 i = x (ix2 0 (i 1)) :=
  broadcastTo_apply x broadcasts_S1x128_S6400x128 i (ix2 0 (i 1)) (fun a => by
    match a with
    | ⟨0, _⟩ => rfl
    | ⟨1, _⟩ => rfl)

/-! ## The payload -/

/-- The body's stored value is the perceptron of its five loaded blocks. -/
theorem pay_eq (x0 : Vec Ideal S6400x192 .f32) (x1 : Vec Ideal S192x256 .f32) (x2 : Vec Ideal S1x256 .f32)
    (x3 : Vec Ideal S256x128 .f32) (x4 : Vec Ideal S1x128 .f32) :
    k0_pay1 (F := Ideal) x0 x1 x2 x3 x4 = Cert.EdgeMlp.mlp 6400 x0 x1 x2 x3 x4 := by
  funext i
  unfold k0_pay1 Cert.EdgeMlp.mlp
  simp only [shapeCast_self]
  rw [addf_apply, layer2_apply, bias2_apply]
  refine congrArg (· + x4 (ix2 0 (i 1))) (Finset.sum_congr rfl fun k _ => ?_)
  rw [truncf_apply, maximumf_apply, addf_apply, layer1_apply, bias1_apply, truncf_apply]
  rfl

end Cert.KernelIdeal.BodyValue

end
-- ==== Proof.KernelBlocks.lean ====
/-
  From one grid point to the whole message array. Point t of the 100-point grid loads rows 6400·t .. 6400·t + 6399
  of the feature array and the four parameter arrays whole, and writes back rows 6400·t .. 6400·t + 6399 of the
  message array. The perceptron acts row by row (MlpSpec.lean), so what point t writes back is block t of the
  perceptron of the whole feature array; the 100 blocks tile the 640000 rows, so after the region the message array
  IS that perceptron of the arrays the region found.
-/
import proofs.«400427_j34067680592556_1_alg».proof.Proof.Gen.KernelIdeal.Frame
import proofs.«400427_j34067680592556_1_alg».proof.Proof.BodyValue
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The printed index maps over the grid: the feature and message windows step one block of rows per point, the
    four parameter windows stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The arrays the region finds, at their literal types -/

abbrev feat (c : Dev nD) : FVec Ideal S640000x192 .f32 := V m c main_v5
abbrev w1t (c : Dev nD) : FVec Ideal S192x256 .f32 := V m c main_v6
abbrev b1r (c : Dev nD) : FVec Ideal S1x256 .f32 := V m c main_v8
abbrev w2t (c : Dev nD) : FVec Ideal S256x128 .f32 := V m c main_v7
abbrev b2r (c : Dev nD) : FVec Ideal S1x128 .f32 := V m c main_v9

/-- The message array the region leaves: the perceptron of the arrays it found. -/
abbrev msgs (c : Dev nD) : FVec Ideal S640000x128 .f32 :=
  Cert.EdgeMlp.mlp 640000 (feat m c) (w1t m c) (b1r m c) (w2t m c) (b2r m c)

/-! ## The input blocks at a point -/

/-- The first weight window's block is the whole array at every point. -/
theorem blk1_eq (c : Dev nD) (t : Fin cfg0.N) : (iblk m c 1 t : FVec Ideal S192x256 .f32) = w1t m c := by
  obtain ⟨-, -, e0, e1, -⟩ := idx_facts t
  funext y
  show V m c main_v6 (((cfg0.win 1).blk t).view.emb y) = V m c main_v6 y
  refine congrArg (V m c main_v6) (funext fun a => Fin.ext ?_)
  match a with
  | ⟨0, _⟩ => show win0_1.index t (0 : Fin 2) * 192 + 1 * (y 0).val = (y 0).val; omega
  | ⟨1, _⟩ => show win0_1.index t (1 : Fin 2) * 256 + 1 * (y 1).val = (y 1).val; omega

/-- The first bias window's block is the whole row at every point. -/
theorem blk2_eq (c : Dev nD) (t : Fin cfg0.N) : (iblk m c 2 t : FVec Ideal S1x256 .f32) = b1r m c := by
  obtain ⟨-, -, -, -, e0, e1, -⟩ := idx_facts t
  funext y
  show V m c main_v8 (((cfg0.win 2).blk t).view.emb y) = V m c main_v8 y
  refine congrArg (V m c main_v8) (funext fun a => Fin.ext ?_)
  match a with
  | ⟨0, _⟩ => show win0_2.index t (0 : Fin 2) * 1 + 1 * (y 0).val = (y 0).val; omega
  | ⟨1, _⟩ => show win0_2.index t (1 : Fin 2) * 256 + 1 * (y 1).val = (y 1).val; omega

/-- The second weight window's block is the whole array at every point. -/
theorem blk3_eq (c : Dev nD) (t : Fin cfg0.N) : (iblk m c 3 t : FVec Ideal S256x128 .f32) = w2t m c := by
  obtain ⟨-, -, -, -, -, -, e0, e1, -⟩ := idx_facts t
  funext y
  show V m c main_v7 (((cfg0.win 3).blk t).view.emb y) = V m c main_v7 y
  refine congrArg (V m c main_v7) (funext fun a => Fin.ext ?_)
  match a with
  | ⟨0, _⟩ => show win0_3.index t (0 : Fin 2) * 256 + 1 * (y 0).val = (y 0).val; omega
  | ⟨1, _⟩ => show win0_3.index t (1 : Fin 2) * 128 + 1 * (y 1).val = (y 1).val; omega

/-- The second bias window's block is the whole row at every point. -/
theorem blk4_eq (c : Dev nD) (t : Fin cfg0.N) : (iblk m c 4 t : FVec Ideal S1x128 .f32) = b2r m c := by
  obtain ⟨-, -, -, -, -, -, -, -, e0, e1, -⟩ := idx_facts t
  funext y
  show V m c main_v9 (((cfg0.win 4).blk t).view.emb y) = V m c main_v9 y
  refine congrArg (V m c main_v9) (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-! ## What a point writes back -/

/-- WHAT POINT t WRITES BACK is block t of the perceptron of the arrays the region found. -/
theorem flushed_eq (c : Dev nD) (t : Fin cfg0.N) :
    (dats m 0 c).flushed 5 t = ((cfg0.win 5).blk t).view.read (Elt Ideal) (msgs m c) := by
  show (cfg0.win 5).cut (grid0.coords t) ((dats m 0 c).after 5 t) = _
  rw [after0_5]
  unfold out0_5
  rw [View.canon_unit_zero hz]
  simp only [View.ld_unit_zero (S := S6400x192) hz, View.ld_unit_zero (S := S192x256) hz, View.ld_unit_zero (S := S1x256) hz,
    View.ld_unit_zero (S := S256x128) hz, View.ld_unit_zero (S := S1x128) hz]
  rw [Cert.KernelIdeal.BodyValue.pay_eq, blk1_eq, blk2_eq, blk3_eq, blk4_eq]
  obtain ⟨e0, e1, -, -, -, -, -, -, -, -, e10, e11⟩ := idx_facts t
  funext y
  show Cert.EdgeMlp.mlp 6400 (iblk m c 0 t) (w1t m c) (b1r m c) (w2t m c) (b2r m c) y
    = Cert.EdgeMlp.mlp 640000 (feat m c) (w1t m c) (b1r m c) (w2t m c) (b2r m c) (((cfg0.win 5).blk t).view.emb y)
  refine Cert.EdgeMlp.mlp_rows (feat m c) (w1t m c) (b1r m c) (w2t m c) (b2r m c) (iblk m c 0 t) _ y ?_ ?_
  · show (y 1).val = win0_5.index t (1 : Fin 2) * 128 + 1 * (y 1).val
    omega
  · intro j
    show V m c main_v5 (((cfg0.win 0).blk t).view.emb (ix2 (y 0) j)) = V m c main_v5 (ix2 ((((cfg0.win 5).blk t).view.emb y) 0) j)
    refine congrArg (V m c main_v5) (funext fun a => Fin.ext ?_)
    match a with
    | ⟨0, _⟩ => show win0_0.index t (0 : Fin 2) * 6400 + 1 * (y 0).val = win0_5.index t (0 : Fin 2) * 6400 + 1 * (y 0).val; omega
    | ⟨1, _⟩ => show win0_0.index t (1 : Fin 2) * 192 + 1 * j.val = j.val; omega

/-! ## The cover -/

/-- An index of the message array is in point t's block iff each coordinate is in the block's range on its axis. -/
theorem mem_blk (t : Fin cfg0.N) (i : S640000x128.Idx) :
    i ∈ ((cfg0.win 5).blk t).view.set ↔ ∀ a : Fin 2, win0_5.index t a * S6400x128.size a ≤ (i a).val ∧ (i a).val < win0_5.index t a * S6400x128.size a + S6400x128.size a := by
  show i ∈ ((View.whole main_v10).slice (win0_5.rect t)).set ↔ _
  rw [View.set_slice_whole, Rect.mem_set_unit]
  exact Iff.rfl

/-- Row r of the message array is written back by point r / 6400. -/
theorem cover (i : S640000x128.Idx) :
    ∃ t : Fin cfg0.N, (cfg0.win 5).flush t = true ∧ i ∈ ((cfg0.win 5).blk t).view.set := by
  have hi0 : (i 0).val < 640000 := (i 0).isLt
  have hi1 : (i 1).val < 128 := (i 1).isLt
  have hN : cfg0.N = 100 := N_0
  refine ⟨⟨(i 0).val / 6400, by rw [hN]; omega⟩, flush0_5 _, ?_⟩
  rw [mem_blk]
  obtain ⟨-, -, -, -, -, -, -, -, -, -, e10, e11⟩ := idx_facts ⟨(i 0).val / 6400, by rw [hN]; omega⟩
  intro a
  match a with
  | ⟨0, _⟩ =>
    show win0_5.index _ (0 : Fin 2) * 6400 ≤ (i 0).val ∧ (i 0).val < win0_5.index _ (0 : Fin 2) * 6400 + 6400
    rw [e10]
    show (i 0).val / 6400 * 6400 ≤ (i 0).val ∧ (i 0).val < (i 0).val / 6400 * 6400 + 6400
    omega
  | ⟨1, _⟩ =>
    show win0_5.index _ (1 : Fin 2) * 128 ≤ (i 1).val ∧ (i 1).val < win0_5.index _ (1 : Fin 2) * 128 + 128
    rw [e11]
    omega

/-- THE MESSAGE ARRAY after the region: the perceptron of the arrays the region found. -/
theorem final (c : Dev nD) : (dats m 0 c).arrAt 5 cfg0.N = msgs m c :=
  (dats m 0 c).arrAt_eq_of_cover 5 (msgs m c) (fun t _ => flushed_eq m c t) (cover)

end Cert.KernelIdeal.Blocks

end
-- ==== Proof.HostTerms.lean ====
/-
  The host lines of the kernel program before its region, as pure terms of the argument arrays. The source ids
  (row 0 of the edge index) are wrapped once by the table's length where negative; the table's rows are gathered
  at the wrapped ids; a row whose wrapped id is outside [0, 9999] is replaced by the not-a-number pattern; the
  gathered rows are joined with the edge attributes along the feature axis.
-/
import proofs.«400427_j34067680592556_1_alg».proof.Proof.Gen.KernelIdeal

noncomputable section

namespace Cert.KernelIdeal.HostSide

open Cert.KernelIdeal Cert.KernelIdeal.Gen Idealize.ShloMosaic

variable {F : FTy → Type} [FloatOps F]

/-! ## The terms -/

/-- Row r of the edge index as a vector of 640000 words. -/
def srcIds (x1 : IVec S2x640000 32) : IVec S640000 32 :=
  shapeCast S640000 (extractStridedSlice S1x640000 ![0, 0] x1 slices_S2x640000_S1x640000_0_0) shapeCasts_S1x640000_S640000
def dstIds (x1 : IVec S2x640000 32) : IVec S640000 32 :=
  shapeCast S640000 (extractStridedSlice S1x640000 ![1, 0] x1 slices_S2x640000_S1x640000_1_0) shapeCasts_S1x640000_S640000

/-- The source ids with a negative one moved up by the table's 10000 rows. -/
def wrapIds (x1 : IVec S2x640000 32) : IVec S640000 32 :=
  select (cmpi .slt (srcIds x1) (broadcastInDim S640000 ![] bcast_S_S640000 (constantI S_ 32 0#32)))
    (addi (srcIds x1) (broadcastInDim S640000 ![] bcast_S_S640000 (constantI S_ 32 10000#32))) (srcIds x1)

/-- The wrapped ids as a column: the gather's start indices. -/
def wrapCol (x1 : IVec S2x640000 32) : IVec S640000x1 32 :=
  broadcastInDim S640000x1 ![0] bcast_S640000_S640000x1_0 (wrapIds x1)

/-- Per edge: is the wrapped id a row of the table, 0 ≤ id ≤ 9999. -/
def inRange (x1 : IVec S2x640000 32) : IVec S640000 1 :=
  Host.reduce IntOp.andi
    (andi (cmpi .sge (wrapCol x1) (broadcastInDim S640000x1 ![] bcast_S_S640000x1 (constantI S_ 32 0#32)))
      (cmpi .sle (wrapCol x1) (broadcastInDim S640000x1 ![0, 1] bcast_S1x1_S640000x1_0_1 (broadcastInDim S1x1 ![1] bcast_S1_S1x1_1 (constantI S1 32 9999#32)))))
    (constantI S_ 1 1#1) reducesTo_S640000x1_S640000_d1 h_S_

/-- The table's rows at the wrapped ids. -/
def gathered (x0 : FVec F S10000x128 .f32) (x1 : IVec S2x640000 32) : FVec F S640000x128 .f32 :=
  Host.gather gather_S10000x128_S640000x1_S640000x128_1_0_n_n_0_1_1128 x0 (wrapCol x1)

/-- The take with its fill: the gathered row where the id is in range, the not-a-number pattern elsewhere. -/
def taken (x0 : FVec F S10000x128 .f32) (x1 : IVec S2x640000 32) : FVec F S640000x128 .f32 :=
  select (broadcastInDim S640000x128 ![0] bcast_S640000_S640000x128_0 (inRange x1)) (gathered x0 x1)
    (broadcastInDim S640000x128 ![] bcast_S_S640000x128 (constant (F := F) S_ .f32 0x7FC00000#32))

/-- Rows joined with the edge attributes along the feature axis: [640000, 128] ++ [640000, 64]. -/
def joined (a : FVec F S640000x128 .f32) (x2 : FVec F S640000x64 .f32) : FVec F S640000x192 .f32 :=
  concatenate S640000x192 1 [⟨S640000x128, a⟩, ⟨S640000x64, x2⟩] concatenates_S640000x128_S640000x64_S640000x192_d1

end Cert.KernelIdeal.HostSide

end
-- ==== Proof.KernelHost.lean ====
/-
  What the kernel program's region finds in its five input arrays: the host lines before it, read back as the
  pure terms of HostTerms.lean — the joined features, the two transposed weight arrays, the two biases as rows —
  and the target ids the lines after the region read.
-/
import proofs.«400427_j34067680592556_1_alg».proof.Proof.Gen.KernelIdeal.Frame
import proofs.«400427_j34067680592556_1_alg».proof.Proof.HostTerms
import Idealize.ShloMosaic.Lib.StableHlo.Run

set_option maxRecDepth 16384

noncomputable section

namespace Cert.KernelIdeal.HostSide

open Cert.KernelIdeal Cert.KernelIdeal.Gen Idealize.ShloMosaic Idealize.ShloMosaic.TcCoe Idealize.SL.Sem

variable {F : FTy → Type} [FloatOps F]

variable (m : (ℓ : Loc nD τ sig) → Buf (Elt F) ℓ)

/-! ## What the region finds -/

set_option maxHeartbeats 4000000 in
/-- The feature array the region finds. -/
theorem V_feat (c : Dev nD) : (V m c main_v5 : FVec F S640000x192 .f32)
    = joined (taken (m ((c : Thread nD τ).loc main_arg0)) (m ((c : Thread nD τ).loc main_arg1))) (m ((c : Thread nD τ).loc main_arg2)) := by
  unfold joined taken gathered inRange wrapCol wrapIds srcIds
  dsimp only [V, V0]
  simp only [hostOps0, hostOps0_1, hostOps0_2, List.flatten_cons, List.flatten_nil, List.append_nil, List.cons_append, List.nil_append]
  after_results
  simp only [StableHlo.TRef.ofBuf, StableHlo.TRef.toBuf, cast_cast, cast_eq]
  rfl

/-- The first weight array the region finds: the transpose of W1. -/
theorem V_w1t (c : Dev nD) : (V m c main_v6 : FVec F S192x256 .f32)
    = transpose S192x256 [1, 0] (m ((c : Thread nD τ).loc main_arg3)) transposes_S256x192_S192x256_1_0 := by
  dsimp only [V, V0]
  simp only [hostOps0, hostOps0_1, hostOps0_2, List.flatten_cons, List.flatten_nil, List.append_nil, List.cons_append, List.nil_append]
  after_results

/-- The second weight array the region finds: the transpose of W2. -/
theorem V_w2t (c : Dev nD) : (V m c main_v7 : FVec F S256x128 .f32)
    = transpose S256x128 [1, 0] (m ((c : Thread nD τ).loc main_arg5)) transposes_S128x256_S256x128_1_0 := by
  dsimp only [V, V0]
  simp only [hostOps0, hostOps0_1, hostOps0_2, List.flatten_cons, List.flatten_nil, List.append_nil, List.cons_append, List.nil_append]
  after_results

/-- The first bias as a row. -/
theorem V_b1r (c : Dev nD) : (V m c main_v8 : FVec F S1x256 .f32)
    = shapeCast S1x256 (m ((c : Thread nD τ).loc main_arg4)) shapeCasts_S256_S1x256 := by
  dsimp only [V, V0]
  simp only [hostOps0, hostOps0_1, hostOps0_2, List.flatten_cons, List.flatten_nil, List.append_nil, List.cons_append, List.nil_append]
  after_results
  rfl

/-- The second bias as a row. -/
theorem V_b2r (c : Dev nD) : (V m c main_v9 : FVec F S1x128 .f32)
    = shapeCast S1x128 (m ((c : Thread nD τ).loc main_arg6)) shapeCasts_S128_S1x128 := by
  dsimp only [V, V0]
  simp only [hostOps0, hostOps0_1, hostOps0_2, List.flatten_cons, List.flatten_nil, List.append_nil, List.cons_append, List.nil_append]
  after_results
  rfl

/-- The target ids, which the lines after the region read. -/
theorem V_dst (c : Dev nD) : (V m c main_v3 : IVec S640000 32) = dstIds (m ((c : Thread nD τ).loc main_arg1)) := by
  dsimp only [V, V0]
  simp only [hostOps0, hostOps0_1, hostOps0_2, List.flatten_cons, List.flatten_nil, List.append_nil, List.cons_append, List.nil_append]
  after_results
  rfl

end Cert.KernelIdeal.HostSide

end
-- ==== Proof.InRange.lean ====
/-
  The added precondition, decoded. It says that every source id e satisfies -10000 ≤ e < 10000: an index a table of
  10000 rows admits, counted from either end. A negative one is moved up by 10000, so the wrapped id lies in
  [0, 9999]; the take's in-range test then holds on every edge and its fill is never selected: what the kernel
  program joins to the edge attributes is the plain gather at the wrapped ids.
-/
import proofs.«400427_j34067680592556_1_alg».proof.Defs
import proofs.«400427_j34067680592556_1_alg».proof.Proof.Gen.Pre_finite_inputs
import proofs.«400427_j34067680592556_1_alg».proof.Proof.HostTerms
import Idealize.ShloMosaic.Lib.ReduceAll
import Idealize.ShloMosaic.Lib.Affine
import Idealize.ShloMosaic.Lib.ValueIdx
import Idealize.ShloMosaic.PureOps.Ideal

noncomputable section

namespace Cert.KernelIdeal.InRange

open Cert.KernelIdeal Cert.KernelIdeal.Gen Cert.KernelIdeal.HostSide Idealize.ShloMosaic Idealize.ShloMosaic.TcCoe Idealize.SL.Sem

/-! ## One word -/

/-- A word in [-10000, 10000), moved up by 10000 where negative, lies in [0, 9999]. -/
theorem wrap_word (s : BitVec 32) (hlo : (4294957296#32 : BitVec 32).toInt ≤ s.toInt) (hhi : s.toInt < (10000#32 : BitVec 32).toInt) :
    IntOp.cmpi .sge (Scalar.select (IntOp.cmpi .slt s 0#32) (IntOp.addi s 10000#32) s) 0#32 = 1#1
    ∧ IntOp.cmpi .sle (Scalar.select (IntOp.cmpi .slt s 0#32) (IntOp.addi s 10000#32) s) 9999#32 = 1#1 := by
  have h1 : (4294957296#32 : BitVec 32).toInt = -10000 := by decide
  have h2 : (10000#32 : BitVec 32).toInt = 10000 := by decide
  have h3 : (0#32 : BitVec 32).toInt = 0 := by decide
  have h4 : (9999#32 : BitVec 32).toInt = 9999 := by decide
  rw [h1] at hlo; rw [h2] at hhi
  rw [IntOp.cmpi_sge, IntOp.cmpi_sle, h3, h4]
  by_cases hneg : s.toInt < 0
  · have c : IntOp.cmpi .slt s 0#32 = 1#1 := IntOp.cmpi_slt.2 (by rw [h3]; exact hneg)
    rw [c, ValueIdx.select_one]
    have e : (IntOp.addi s 10000#32).toInt = s.toInt + 10000 := by
      show (s + 10000#32).toInt = _
      rw [BitVec.toInt_add, h2, Int.bmod_eq_emod]
      split <;> omega
    rw [e]; omega
  · have c : IntOp.cmpi .slt s 0#32 = 0#1 :=
      ValueIdx.eq_zero_of_ne_one (fun h => hneg (by have := IntOp.cmpi_slt.1 h; rw [h3] at this; exact this))
    rw [c, ValueIdx.select_zero]
    omega

/-- A conjunction of ones, folded from one, is one. -/
theorem foldl_andi_ones {ι : Type} (f : ι → BitVec 1) :
    ∀ (l : List ι), (∀ n ∈ l, f n = 1#1) → l.foldl (fun r n => IntOp.andi r (f n)) 1#1 = 1#1
  | [], _ => rfl
  | a :: l, h => by
    have ha : IntOp.andi 1#1 (f a) = 1#1 := by rw [h a (List.mem_cons_self ..)]; decide
    rw [List.foldl_cons, ha]
    exact foldl_andi_ones f l (fun n hn => h n (List.mem_cons_of_mem _ hn))

/-! ## Every edge -/

/-- With every source id in [-10000, 10000) the in-range test holds on every edge. -/
theorem inRange_ones (x1 : IVec S2x640000 32)
    (hb : ∀ e : S640000.Idx, (4294957296#32 : BitVec 32).toInt ≤ (srcIds x1 e).toInt ∧ (srcIds x1 e).toInt < (10000#32 : BitVec 32).toInt) :
    inRange x1 = fun _ => 1#1 := by
  have key : ∀ e : S640000.Idx, IntOp.andi (IntOp.cmpi .sge (wrapIds x1 e) 0#32) (IntOp.cmpi .sle (wrapIds x1 e) 9999#32) = 1#1 := fun e => by
    obtain ⟨a, b⟩ := wrap_word (srcIds x1 e) (hb e).1 (hb e).2
    exact IntOp.andi_eq_one.2 ⟨a, b⟩
  funext j
  unfold inRange Host.reduce
  refine foldl_andi_ones _ _ (fun n _ => ?_)
  exact key _

/-- Then the take's fill is never selected: the taken rows are the gathered rows. -/
theorem taken_eq_gathered {F : FTy → Type} [FloatOps F] (x0 : FVec F S10000x128 .f32) (x1 : IVec S2x640000 32)
    (hb : ∀ e : S640000.Idx, (4294957296#32 : BitVec 32).toInt ≤ (srcIds x1 e).toInt ∧ (srcIds x1 e).toInt < (10000#32 : BitVec 32).toInt) :
    taken x0 x1 = gathered x0 x1 := by
  funext i
  unfold taken
  rw [inRange_ones x1 hb]
  exact ValueIdx.select_one _ _

/-! ## The precondition -/

instance : Subsingleton Cert.Pre_finite_inputs.S_.Idx := ⟨fun a b => funext fun d => d.elim0⟩

/-- The precondition's last conjunct read back: on every device every source id lies in [-10000, 10000). -/
theorem src_bounds (m : (ℓ : Loc nD τ sig) → Buf (Elt Ideal) ℓ) (h : Cert.Pre_KernelIdeal m) (c : Dev nD) (e : S640000.Idx) :
    (4294957296#32 : BitVec 32).toInt ≤ (srcIds (m ((c : Thread nD τ).loc main_arg1)) e).toInt
    ∧ (srcIds (m ((c : Thread nD τ).loc main_arg1)) e).toInt < (10000#32 : BitVec 32).toInt := by
  have e0 := congrFun (h c) ValueIdx.ix0
  unfold Cert.Pre_finite_inputs.fn Cert.Pre_finite_inputs.fn_part1 Cert.Pre_finite_inputs.fn_part2 at e0
  dsimp only at e0
  have e1 := (IntOp.andi_eq_one.1 e0).2
  have e2 := Host.reduce_andi_all _ _ _ _ _ e1 e
  obtain ⟨a, b⟩ := IntOp.andi_eq_one.1 e2
  exact ⟨IntOp.cmpi_sge.1 a, IntOp.cmpi_slt.1 b⟩

end Cert.KernelIdeal.InRange

end
-- ==== Proof.KernelRun.lean ====
/-
  The kernel program's run, read back. After the region the message array is the perceptron of what the region
  found (KernelBlocks.lean); the lines after the region scatter-add its rows into a zero table at the target ids.
  With every source id an admissible index (the added precondition, InRange.lean) the features the region found are
  the gathered table rows joined with the edge attributes, so the result is the scatter-add, at the target ids, of
  the perceptron of exactly the arrays the reference feeds its own.
-/
import proofs.«400427_j34067680592556_1_alg».proof.Proof.Gen.KernelIdeal.Frame
import proofs.«400427_j34067680592556_1_alg».proof.Proof.KernelBlocks
import proofs.«400427_j34067680592556_1_alg».proof.Proof.KernelHost
import proofs.«400427_j34067680592556_1_alg».proof.Proof.InRange
import Idealize.ShloMosaic.Lib.StableHlo.Run

set_option maxRecDepth 16384

noncomputable section

namespace Cert.KernelIdeal.RunValue

open Cert.KernelIdeal Cert.KernelIdeal.Gen Cert.KernelIdeal.HostSide Idealize.ShloMosaic Idealize.ShloMosaic.TcCoe Idealize.SL.Sem
open Idealize.ShloMosaic.Pipeline (Dat)

/-! ## The lines after the region -/

section Tail

variable {F : FTy → Type} [FloatOps F] (m : (ℓ : Loc nD τ sig) → Buf (Elt F) ℓ)

/-- The program's result after the lines that follow the region: the scatter-add into a zero table, at the target
    ids as the region found them, of the message array the region leaves. -/
theorem tail_eq (c : Dev nD) :
    Pipeline.afterTail₀ cfgs (dats m) 0 (V0 m) [hostOps1] c main_v13
      = Host.scatterAdd scatter_S10000x128_S640000x1_S640000x128_1_0_0_1
          (broadcastInDim S10000x128 ![] bcast_S_S10000x128 (constant S_ .f32 0x00000000#32))
          (broadcastInDim S640000x1 ![0] bcast_S640000_S640000x1_0 (V m c main_v3))
          ((dats m 0 c).arrAt 5 cfg0.N) := by
  have e3 : Pipeline.withArrays spec0 c (V0 m c) (fun w => (dats m 0 c).arrAt w cfg0.N) (Proc.devRef .tc main_v3)
      = V0 m c (Proc.devRef .tc main_v3) :=
    Pipeline.withArrays_of_ne _ c (V0 m c) _ main_v3 (by exact (by decide : ∀ w, Pipeline.arrRef spec0 w ≠ main_v3))
  have e10 : Pipeline.withArrays spec0 c (V0 m c) (fun w => (dats m 0 c).arrAt w cfg0.N) (Proc.devRef .tc main_v10)
      = (dats m 0 c).arrAt 5 cfg0.N :=
    Pipeline.withArrays_arr spec0 launch0.win.arr_inj c (V0 m c) (fun w => (dats m 0 c).arrAt w cfg0.N) 5
  unfold Pipeline.afterTail₀
  show StableHlo.after hostOps1 _ (Proc.devRef .tc main_v13) = _
  after_results
  rw [e3, e10]

end Tail

/-! ## The run at the extended reals -/

/-- What the kernel program's result holds, as a function of the argument arrays. -/
def result (x0 : FVec Ideal S10000x128 .f32) (x1 : IVec S2x640000 32) (x2 : FVec Ideal S640000x64 .f32)
    (x3 : FVec Ideal S256x192 .f32) (x4 : FVec Ideal S256 .f32) (x5 : FVec Ideal S128x256 .f32) (x6 : FVec Ideal S128 .f32) :
    FVec Ideal S10000x128 .f32 :=
  Host.scatterAdd scatter_S10000x128_S640000x1_S640000x128_1_0_0_1
    (broadcastInDim S10000x128 ![] bcast_S_S10000x128 (constant S_ .f32 0x00000000#32))
    (broadcastInDim S640000x1 ![0] bcast_S640000_S640000x1_0 (dstIds x1))
    (Cert.EdgeMlp.mlp 640000 (joined (gathered x0 x1) x2)
      (transpose S192x256 [1, 0] x3 transposes_S256x192_S192x256_1_0) (shapeCast S1x256 x4 shapeCasts_S256_S1x256)
      (transpose S256x128 [1, 0] x5 transposes_S128x256_S256x128_1_0) (shapeCast S1x128 x6 shapeCasts_S128_S1x128))

variable (m : (ℓ : Loc nD τ sig) → Buf (Elt Ideal) ℓ) (ρ : Dev nD → PrngReg)

/-- Under the precondition every weakly fair execution of the kernel program ends with its result at `result` of
    the argument arrays, and the arguments unchanged. -/
theorem run (h : Cert.Pre_KernelIdeal m) : θ_run defs (onTc (τ := τ) (main (F := Ideal))) ⟨m, fun _ => 0, ρ⟩ fun r => ∀ c : Dev nD,
      r.2.mem ((c.tc : Thread nD τ).loc main_v13) = result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r hr c => ⟨?_,
      (((hr c).2 main_arg0 (Pipeline.mem_restRefs_of main_arg0 (by decide) (by decide))).trans (W_main_arg0 m (dats m) c)),
      (((hr c).2 main_arg1 (Pipeline.mem_restRefs_of main_arg1 (by decide) (by decide))).trans (W_main_arg1 m (dats m) c)),
      (((hr c).2 main_arg2 (Pipeline.mem_restRefs_of main_arg2 (by decide) (by decide))).trans (W_main_arg2 m (dats m) c)),
      (((hr c).2 main_arg3 (Pipeline.mem_restRefs_of main_arg3 (by decide) (by decide))).trans (W_main_arg3 m (dats m) c)),
      (((hr c).2 main_arg4 (Pipeline.mem_restRefs_of main_arg4 (by decide) (by decide))).trans (W_main_arg4 m (dats m) c)),
      (((hr c).2 main_arg5 (Pipeline.mem_restRefs_of main_arg5 (by decide) (by decide))).trans (W_main_arg5 m (dats m) c)),
      (((hr c).2 main_arg6 (Pipeline.mem_restRefs_of main_arg6 (by decide) (by decide))).trans (W_main_arg6 m (dats m) c))⟩)
    (run_main m ρ)
  refine ((hr c).2 main_v13 (Pipeline.mem_restRefs_of main_v13 (by decide) (by decide))).trans ?_
  rw [tail_eq m c, Cert.KernelIdeal.Blocks.final m c]
  unfold result
  have hb := Cert.KernelIdeal.InRange.src_bounds m h c
  have ef : Cert.KernelIdeal.Blocks.feat m c = joined (gathered (m ((c.tc : Thread nD τ).loc main_arg0)) (m ((c.tc : Thread nD τ).loc main_arg1))) (m ((c.tc : Thread nD τ).loc main_arg2)) := by
    show (V m c main_v5 : FVec Ideal S640000x192 .f32) = _
    rw [V_feat m c, Cert.KernelIdeal.InRange.taken_eq_gathered _ _ hb]
  have e1 : Cert.KernelIdeal.Blocks.w1t m c = _ := V_w1t m c
  have e2 : Cert.KernelIdeal.Blocks.b1r m c = _ := V_b1r m c
  have e3 : Cert.KernelIdeal.Blocks.w2t m c = _ := V_w2t m c
  have e4 : Cert.KernelIdeal.Blocks.b2r m c = _ := V_b2r m c
  have e5 : (V m c main_v3 : IVec S640000 32) = _ := V_dst m c
  show Host.scatterAdd _ _ (broadcastInDim S640000x1 ![0] bcast_S640000_S640000x1_0 (V m c main_v3))
      (Cert.EdgeMlp.mlp 640000 (Cert.KernelIdeal.Blocks.feat m c) (Cert.KernelIdeal.Blocks.w1t m c) (Cert.KernelIdeal.Blocks.b1r m c)
        (Cert.KernelIdeal.Blocks.w2t m c) (Cert.KernelIdeal.Blocks.b2r m c)) = _
  rw [ef, e1, e2, e3, e4, e5]

end Cert.KernelIdeal.RunValue

end
-- ==== Proof.RefValue.lean ====
/-
  The reference program's message array, at the extended reals, is the perceptron (MlpSpec.lean) of its joined
  features, its transposed weights and its biases as rows: the two host products are the plain sums over the
  contracted axis, the bias rows are broadcast along the edges, the rectifier is the maximum with the zero pattern.
-/
import proofs.«400427_j34067680592556_1_alg».proof.Proof.Gen.ReferenceIdeal.Read
import proofs.«400427_j34067680592556_1_alg».proof.Proof.MlpSpec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-- The reference's messages before the scatter: the perceptron of the stages that feed it. -/
theorem msgs_eq (x0 : FVec Ideal S10000x128 .f32) (x1 : IVec S2x640000 32) (x2 : FVec Ideal S640000x64 .f32)
    (x3 : FVec Ideal S256x192 .f32) (x4 : FVec Ideal S256 .f32) (x5 : FVec Ideal S128x256 .f32) (x6 : FVec Ideal S128 .f32) :
    val_main_v22 (F := Ideal) x0 x1 x2 x3 x4 x5 x6
      = Cert.EdgeMlp.mlp 640000 (val_main_v11 (F := Ideal) x0 x1 x2) (val_main_v12 (F := Ideal) x3) (val_main_v14 (F := Ideal) x4)
          (val_main_v18 (F := Ideal) x5) (val_main_v20 (F := Ideal) x6) := by
  funext i
  obtain ⟨r, o, rfl⟩ : ∃ (r : Fin 640000) (o : Fin 128), i = ix2 r o := ⟨i 0, i 1, eq_ix2 i⟩
  unfold Cert.EdgeMlp.mlp
  show _ = (∑ k : Fin 256, max ((∑ j : Fin 192, val_main_v11 (F := Ideal) x0 x1 x2 (ix2 r j) * val_main_v12 (F := Ideal) x3 (ix2 j k))
      + val_main_v14 (F := Ideal) x4 (ix2 0 k)) (Ideal.ofBits .f32 0x00000000#32) * val_main_v18 (F := Ideal) x5 (ix2 k o))
      + val_main_v20 (F := Ideal) x6 (ix2 0 o)
  rw [val_main_v22_apply, val_main_v19_apply, val_main_v21_apply]
  have e21 : idx_main_v21 (ix2 r o) = ix2 0 o := funext fun a => Fin.ext (by
    match a with
    | ⟨0, _⟩ => rfl
    | ⟨1, _⟩ => rfl)
  rw [e21]
  refine congrArg (· + val_main_v20 (F := Ideal) x6 (ix2 0 o)) (Finset.sum_congr rfl fun k _ => ?_)
  have el : lidx_main_v19 (ix2 r o) k = ix2 r k := funext fun a => Fin.ext (by
    match a with
    | ⟨0, _⟩ => rfl
    | ⟨1, _⟩ => rfl)
  have er : ridx_main_v19 (ix2 r o) k = ix2 k o := funext fun a => Fin.ext (by
    match a with
    | ⟨0, _⟩ => rfl
    | ⟨1, _⟩ => rfl)
  rw [el, er, val_main_v17_apply, val_main_v16_apply, val_main_v13_apply, val_main_v15_apply, val_main_call0_v0_apply,
    val_main_call0_cst_apply]
  have e15 : idx_main_v15 (ix2 r k) = ix2 0 k := funext fun a => Fin.ext (by
    match a with
    | ⟨0, _⟩ => rfl
    | ⟨1, _⟩ => rfl)
  have el13 : ∀ j : Fin 192, lidx_main_v13 (ix2 r k) j = ix2 r j := fun j => funext fun a => Fin.ext (by
    match a with
    | ⟨0, _⟩ => rfl
    | ⟨1, _⟩ => rfl)
  have er13 : ∀ j : Fin 192, ridx_main_v13 (ix2 r k) j = ix2 j k := fun j => funext fun a => Fin.ext (by
    match a with
    | ⟨0, _⟩ => rfl
    | ⟨1, _⟩ => rfl)
  simp only [e15, el13, er13]
  rfl

end Cert.ReferenceIdeal.RefValue

end
-- ==== Proof.Bridge.lean ====
/-
  The two programs compute one function of the argument arrays. Both gather the table's rows at the wrapped source
  ids and join them with the edge attributes; both run the perceptron (MlpSpec.lean) of those features with the
  transposed weights — the kernel program in 100 blocks of rows, the reference in one piece, row by row the same
  sums —; both scatter-add the messages into a zero table at the target ids. The only stages spelt differently are
  the biases as rows: a reshape [n] → [1, n] in one program, a broadcast along a new leading axis in the other;
  entry (0, k) of either is entry k of the bias.
-/
import proofs.«400427_j34067680592556_1_alg».proof.Proof.Gen.ReferenceIdeal.Read
import proofs.«400427_j34067680592556_1_alg».proof.Proof.RefValue
import proofs.«400427_j34067680592556_1_alg».proof.Proof.KernelRun
import Idealize.ShloMosaic.Lib.Pipeline.Value

noncomputable section

namespace Cert.Bridge

open Idealize.ShloMosaic Idealize.ShloMosaic.ValueIdx
open Cert.ReferenceIdeal.Read Cert.KernelIdeal.HostSide

/-! ## The stages the two programs spell alike -/

section Generic

variable {F : FTy → Type} [FloatOps F]

/-- The joined features. -/
theorem feat_eq (x0 : FVec F Cert.KernelIdeal.S10000x128 .f32) (x1 : IVec Cert.KernelIdeal.S2x640000 32) (x2 : FVec F Cert.KernelIdeal.S640000x64 .f32) :
    val_main_v11 (F := F) x0 x1 x2 = joined (gathered x0 x1) x2 := rfl

/-- The transposed weights. -/
theorem w1_eq (x3 : FVec F Cert.KernelIdeal.S256x192 .f32) :
    val_main_v12 (F := F) x3 = transpose Cert.KernelIdeal.S192x256 [1, 0] x3 Cert.KernelIdeal.Facts₀.transposes_S256x192_S192x256_1_0 := rfl
theorem w2_eq (x5 : FVec F Cert.KernelIdeal.S128x256 .f32) :
    val_main_v18 (F := F) x5 = transpose Cert.KernelIdeal.S256x128 [1, 0] x5 Cert.KernelIdeal.Facts₀.transposes_S128x256_S256x128_1_0 := rfl

/-- The zero table and the target ids as a column. -/
theorem zeros_eq : val_main_v23 (F := F)
    = broadcastInDim Cert.KernelIdeal.S10000x128 ![] Cert.KernelIdeal.Facts₀.bcast_S_S10000x128 (constant Cert.KernelIdeal.S_ .f32 0x00000000#32) := rfl
theorem dst_eq (x1 : IVec Cert.KernelIdeal.S2x640000 32) : val_main_v24 (F := F) x1
    = broadcastInDim Cert.KernelIdeal.S640000x1 ![0] Cert.KernelIdeal.Facts₀.bcast_S640000_S640000x1_0 (dstIds x1) := rfl

/-- A bias of 256 entries as a row, either way: entry (0, k) is entry k. -/
theorem b1_eq (x4 : FVec F Cert.KernelIdeal.S256 .f32) :
    val_main_v14 (F := F) x4 = shapeCast Cert.KernelIdeal.S1x256 x4 Cert.KernelIdeal.Facts₀.shapeCasts_S256_S1x256 := by
  funext j
  rw [val_main_v14_apply]
  refine (shapeCast_apply x4 Cert.KernelIdeal.Facts₀.shapeCasts_S256_S1x256 j (idx_main_v14 j) ?_).symm
  rewrite [Shape.rowMajor_val_two, Shape.rowMajor_val_one]
  have h0 : (j 0).val < 1 := (j 0).isLt
  show (j 1).val = (j 0).val * 256 + (j 1).val
  omega

/-- A bias of 128 entries as a row, either way. -/
theorem b2_eq (x6 : FVec F Cert.KernelIdeal.S128 .f32) :
    val_main_v20 (F := F) x6 = shapeCast Cert.KernelIdeal.S1x128 x6 Cert.KernelIdeal.Facts₀.shapeCasts_S128_S1x128 := by
  funext j
  rw [val_main_v20_apply]
  refine (shapeCast_apply x6 Cert.KernelIdeal.Facts₀.shapeCasts_S128_S1x128 j (idx_main_v20 j) ?_).symm
  rewrite [Shape.rowMajor_val_two, Shape.rowMajor_val_one]
  have h0 : (j 0).val < 1 := (j 0).isLt
  show (j 1).val = (j 0).val * 128 + (j 1).val
  omega

end Generic

/-! ## The results -/

/-- The reference's result is the kernel program's, as functions of the argument arrays. -/
theorem result_eq (x0 : FVec Ideal Cert.KernelIdeal.S10000x128 .f32) (x1 : IVec Cert.KernelIdeal.S2x640000 32)
    (x2 : FVec Ideal Cert.KernelIdeal.S640000x64 .f32) (x3 : FVec Ideal Cert.KernelIdeal.S256x192 .f32)
    (x4 : FVec Ideal Cert.KernelIdeal.S256 .f32) (x5 : FVec Ideal Cert.KernelIdeal.S128x256 .f32) (x6 : FVec Ideal Cert.KernelIdeal.S128 .f32) :
    val_main_v25 (F := Ideal) x0 x1 x2 x3 x4 x5 x6 = Cert.KernelIdeal.RunValue.result x0 x1 x2 x3 x4 x5 x6 := by
  unfold val_main_v25 Cert.KernelIdeal.RunValue.result
  rw [Cert.ReferenceIdeal.RefValue.msgs_eq, feat_eq, w1_eq, w2_eq, b1_eq, b2_eq, zeros_eq, dst_eq]
  rfl

end Cert.Bridge

end
-- ==== Proof.lean ====
/-
  A message-passing layer over 640000 edges of a 10000-node graph: each edge gathers its source node's 128 features,
  joins them with its own 64 attributes, runs a two-layer perceptron (192 → 256 → 128 with a rectifier between),
  and the messages are summed into the target nodes. The kernel program runs the perceptron in a pallas_call over
  100 blocks of 6400 edges, with bf16 casts in front of its two MXU products, and does the gather and the
  scatter-add on the host; the reference does everything on the host in f32.

  At the extended reals the casts are the identity, an MXU product into a zero accumulator and the host's product
  are the same plain sums, and the perceptron acts edge by edge, so cutting the edges into blocks changes nothing:
  no law beyond the congruence of the sums is needed, and no finiteness.

  The one difference is the gather. The kernel program takes rows with a fill: an id that, after one wrap of a
  negative id by 10000, is still outside [0, 9999] yields the not-a-number pattern, where the reference's plain
  gather clamps. Where the source ids index the table — -10000 ≤ id < 10000, the precondition's added conjunct —
  the fill is never selected (InRange.lean), and the two programs are one function of their arguments (Bridge.lean).

  Modules: MlpSpec (the perceptron as a function of whole arrays), BodyValue (one grid point's store is the
  perceptron of its blocks), KernelBlocks (the 100 blocks tile the message array), HostTerms / KernelHost (the host
  lines before the region as pure terms), InRange (the precondition decoded), KernelRun (the kernel program's
  result), RefValue (the reference's messages are the perceptron of its stages), Bridge (the two results agree).
-/
import proofs.«400427_j34067680592556_1_alg».proof.Defs
import proofs.«400427_j34067680592556_1_alg».proof.Proof.Gen.Kernel
import proofs.«400427_j34067680592556_1_alg».proof.Proof.Gen.Kernel.Skeleton
import proofs.«400427_j34067680592556_1_alg».proof.Proof.Gen.Kernel.Launch
import proofs.«400427_j34067680592556_1_alg».proof.Proof.Gen.Kernel.Points
import proofs.«400427_j34067680592556_1_alg».proof.Proof.Gen.Kernel.Frame
import proofs.«400427_j34067680592556_1_alg».proof.Proof.Gen.KernelIdeal
import proofs.«400427_j34067680592556_1_alg».proof.Proof.Gen.KernelIdeal.Skeleton
import proofs.«400427_j34067680592556_1_alg».proof.Proof.Gen.KernelIdeal.Launch
import proofs.«400427_j34067680592556_1_alg».proof.Proof.Gen.KernelIdeal.Points
import proofs.«400427_j34067680592556_1_alg».proof.Proof.Gen.KernelIdeal.Frame
import proofs.«400427_j34067680592556_1_alg».proof.Proof.Gen.ReferenceIdeal
import proofs.«400427_j34067680592556_1_alg».proof.Proof.Gen.Pre_finite_inputs
import proofs.«400427_j34067680592556_1_alg».proof.Proof.Gen.ReferenceIdeal.Run
import proofs.«400427_j34067680592556_1_alg».proof.Proof.Gen.ReferenceIdeal.Read
import proofs.«400427_j34067680592556_1_alg».proof.Proof.KernelRun
import proofs.«400427_j34067680592556_1_alg».proof.Proof.Bridge
import Idealize.ShloMosaic.Adequacy
import Idealize.ShloMosaic.Init

noncomputable section

namespace Cert.Proof

open Idealize.ShloMosaic Idealize.SL.Sem

/-- The three frames: the two kernel programs' are generated whole; the reference's is its generated run with the
    result dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the scatter-add, at the target ids, of the
    perceptron of the gathered-and-joined features: the kernel program by its run read back under the
    precondition, the reference by its generated run and the agreement of the two functions. -/
theorem algebraic : Cert.algebraic_KernelIdeal_ReferenceIdeal := by
  intro m ρ m' ρ' hpre hagree
  refine ⟨_, Cert.KernelIdeal.RunValue.run m ρ hpre, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [a0, a1, a2, a3, a4, a5, a6]
  exact (Cert.ReferenceIdeal.Read.val_main_v25_eq _ _ _ _ _ _ _).trans (Cert.Bridge.result_eq _ _ _ _ _ _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
